-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S8192x4096.size a
  hwx0_2 : ∀ i : grid0.Coords, EltTy.bits .f32 = 32 ∨ (Rect.block (s := S8192x4096) S512x4096.size (cc0_transform_2 i) (hinb0_2 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S8192x4096 : Shape := ⟨2, ![8192, 4096]⟩
abbrev S4096 : Shape := ⟨1, ![4096]⟩
abbrev S1x4096 : Shape := ⟨2, ![1, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .hbm, ⟨4, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)

variable [Facts₀]

class Facts : Prop extends Facts₀ where

variable [Facts]
-- ==== Proof.ScaleCols.lean ====
/-
  Scaling the columns of a matrix by the entries of a vector: the product `x · diag(w)` of an [8192, 4096] matrix
  with the diagonal matrix of a 4096-vector, whose entry (r, j) is `x r j · w j`: one multiplication per entry and no
  sum, since a diagonal matrix has one nonzero entry per column.

  Both programs of this certificate compute exactly this, and both first lay the vector out as a matrix so that
  the multiplication becomes entry by entry: the vector is seen as a one-row matrix [1, 4096], and that row is
  repeated down the rows. Every such layout, read at an entry, hands back the vector's entry at that entry's COLUMN;
  here is the function itself and the one layout fact that is about shapes only (a vector viewed as a one-row
  matrix keeps its entries in order). No law of arithmetic is needed: the two sides multiply the same two numbers in the
  same order, so nothing below depends on the entries being finite.
-/
import Idealize.ShloMosaic.PureOps.Ideal
import Idealize.ShloMosaic.Lib.ValueIdx
import Idealize.ShloMosaic.Lib.Pipeline.Value

noncomputable section

namespace Cert.ScaleCols

open Idealize.ShloMosaic Idealize.ShloMosaic.ValueIdx

/-- The matrix's shape. -/
abbrev Mat : Shape := ⟨2, ![8192, 4096]⟩
/-- The diagonal's shape: one entry per column of the matrix. -/
abbrev Diag : Shape := ⟨1, ![4096]⟩
/-- The diagonal written as a matrix of one row. -/
abbrev Row : Shape := ⟨2, ![1, 4096]⟩

/-- The diagonal's index under a matrix entry: its column. -/
abbrev colOf (i : Mat.Idx) : Diag.Idx := ix1 (n := 4096) (i 1)

/-- The diagonal's index under an entry of the one-row matrix: its column. -/
abbrev colOfRow (k : Row.Idx) : Diag.Idx := ix1 (n := 4096) (k 1)

variable {F : FTy → Type} [FloatOps F]

/-- `x · diag(w)`: entry `i = (r, j)` is `x r j · w j`. -/
def scaleCols (x : FVec F Mat .f32) (w : FVec F Diag .f32) : FVec F Mat .f32 :=
  fun i => FloatOps.mulf (x i) (w (colOf i))

/-- On the extended reals the entry is the product of the two numbers. -/
theorem scaleCols_ideal (x : FVec Ideal Mat .f32) (w : FVec Ideal Diag .f32) (i : Mat.Idx) :
    scaleCols x w i = x i * w (colOf i) := rfl

/-- A vector viewed as a one-row matrix keeps its entries in order: entry (0, j) of the row is entry j of the
    vector, the two having the same position when the entries are counted row by row. -/
theorem row_apply {α : Type} (w : Diag.Idx → α) (h : Diag.ShapeCasts Row) (k : Row.Idx) :
    shapeCast Row w h k = w (colOfRow k) := by
  refine shapeCast_apply w h k (colOfRow k) ?_
  rw [Shape.rowMajor_val_one, Shape.rowMajor_val_two]
  have h0 : (k 0).val < 1 := (k 0).isLt
  show (k 1).val = (k 0).val * 4096 + (k 1).val
  omega

end Cert.ScaleCols

end
-- ==== Proof.ReferenceScale.lean ====
/-
  The reference program is the column scaling `x · diag(w)`.

  It multiplies the matrix, entry by entry, with a matrix it builds from the vector in two steps: the vector is
  given a leading axis of length one (a one-row matrix whose entry (0, j) is `w j`), and that row is repeated down
  all 8192 rows. Reading the product at entry (r, j) and following the two steps back, the second factor is the
  one-row matrix at (0, j), which is the vector at j: the entry's column. So the product's entry (r, j) is
  `x r j · w j`.
-/
import proofs.«401721_j3917010174744_3_alg».proof.Proof.Gen.ReferenceIdeal.Read
import proofs.«401721_j3917010174744_3_alg».proof.Proof.ScaleCols

noncomputable section

namespace Cert.ReferenceIdeal.Scale

open Cert.ReferenceIdeal Cert.ReferenceIdeal.Gen Cert.ReferenceIdeal.Read
open Idealize.ShloMosaic Idealize.ShloMosaic.ValueIdx Cert.ScaleCols

variable {F : FTy → Type} [FloatOps F]

/-- Following an entry (r, j) of the full matrix back through the repetition of the row (to (0, j) of the one-row
    matrix) and then through the added unit axis lands on the vector's entry j. -/
theorem back_to_column (i : S8192x4096.Idx) : idx_main_v0 (idx_main_v1 i) = colOf i := by
  funext a
  match a with
  | ⟨0, _⟩ => rfl

/-- The reference's result, as a function of its two arguments, is `x · diag(w)`: at each entry the product of the
    matrix's entry with the vector's entry at that column. -/
theorem reference_eq (x : (⟨S8192x4096, .f32⟩ : BufTy).Contents (Elt F)) (w : (⟨S4096, .f32⟩ : BufTy).Contents (Elt F)) :
    val_main_v2 (F := F) x w = scaleCols x w := by
  funext i
  rw [val_main_v2_apply, val_main_v1_apply, val_main_v0_apply, back_to_column]
  rfl

end Cert.ReferenceIdeal.Scale

end
-- ==== Proof.KernelScale.lean ====
/-
  The kernel's result array is the column scaling `x · diag(w)`.

  The kernel walks the matrix in 16 tiles of 512 whole rows. Before the launch the vector is rewritten as a one-row
  matrix [1, 4096]; every tile sees that one row in full, next to its own 512 rows of `x`. Inside a tile the row is
  repeated down the 512 rows and multiplied entry by entry with the tile of `x`, and the product is the tile of the
  result. So the tile's entry (p, j) is `x (512·t + p) j · w j` at tile `t`: the tile of `x · diag(w)` that sits at rows
  512·t … 512·t + 511. The 16 tiles are disjoint and together are all 8192 rows (row r lies in tile r / 512), so after
  the last tile the whole result array is `x · diag(w)`. The result has a buffer of its own (it starts as a copy of
  `x`, and every entry of it is overwritten), so `x` itself is only ever read.
-/
import proofs.«401721_j3917010174744_3_alg».proof.Proof.Gen.KernelIdeal.Value
import proofs.«401721_j3917010174744_3_alg».proof.Proof.ScaleCols
import Idealize.ShloMosaic.Lib.StableHlo.Run

noncomputable section

namespace Cert.KernelIdeal.Scale

open Cert.KernelIdeal Cert.KernelIdeal.Gen Cert.KernelIdeal.Value
open Idealize.ShloMosaic Idealize.ShloMosaic.TcCoe Idealize.SL.Sem Idealize.ShloMosaic.StableHlo
open Idealize.ShloMosaic.ValueIdx Cert.ScaleCols
open Idealize.ShloMosaic.Pipeline (Dat)

variable {F : FTy → Type} [FloatOps F]
variable (m : (ℓ : Loc nD τ sig) → Buf (Elt F) ℓ) (ρ : Dev nD → PrngReg)

/-! ## Inside one tile -/

/-- The one-row matrix's entry under a tile entry (p, j): (0, j). -/
abbrev rowUnder (j : S512x4096.Idx) : S1x4096.Idx := ix2 (n0 := 1) (n1 := 4096) 0 (j 1)

/-- What a tile computes from its 512 rows `P0` of the matrix and the one-row matrix `P1`: the row repeated down the
    tile reads, at (p, j), the row's entry (0, j); so the tile's entry (p, j) is `P0 p j · P1 0 j`. -/
theorem tile_apply (P0 : Vec F S512x4096 .f32) (P1 : Vec F S1x4096 .f32) (j : S512x4096.Idx) :
    k0_pay1 P0 P1 j = FloatOps.mulf (P0 j) (P1 (rowUnder j)) := by
  show FloatOps.mulf (P0 j) (broadcastTo S512x4096 (shapeCast S1x4096 P1 shapeCasts_S1x4096_S1x4096) broadcasts_S1x4096_S512x4096 j) = _
  rw [shapeCast_self]
  rw [broadcastTo_apply P1 broadcasts_S1x4096_S512x4096 j (rowUnder j) (fun a => match a with
    | ⟨0, _⟩ => by show 0 = if (1 : Nat) = 1 then 0 else (j 0).val; rw [if_pos rfl]
    | ⟨1, _⟩ => by show (j 1).val = if (4096 : Nat) = 1 then 0 else (j 1).val; rw [if_neg (by decide)])]

/-! ## What the launch finds -/

/-- The launch finds the vector rewritten as a one-row matrix: the host did that, and nothing else wrote there. -/
theorem row_found (c : Dev nD) :
    (V m c main_v0 : S1x4096.Idx → Elt F .f32) = shapeCast S1x4096 (m ((c : Thread nD τ).loc main_arg1)) shapeCasts_S4096_S1x4096 := by
  dsimp only [Gen.V, Gen.hostOps0]
  after_results
  rfl

/-! ## From tiles to the array -/

theorem origin : (![0, 0] : Fin 2 → Nat) = fun _ => 0 := funext fun a => by fin_cases a <;> rfl

/-- Where the tiles sit, decided over the 16 of them: tile `t` of the matrix and of the result is the `t`-th group of
    512 rows, all columns; the one-row matrix is taken whole every time. -/
theorem tiles_at : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT TILE `t` WRITES BACK is tile `t` of `x · diag(w)`, `x` and `w` being the argument arrays. -/
theorem tile_written (c : Dev nD) (t : Fin cfg0.N) :
    (dats m 0 c).flushed 2 t
      = ((cfg0.win 2).blk t).view.read (Elt F) (scaleCols (V m c main_arg0) (m ((c : Thread nD τ).loc main_arg1))) := by
  rw [Value.flushed2]
  unfold out0_2
  rw [View.canon_unit_zero origin]
  simp only [View.ld_unit_zero (S := S512x4096) origin, View.ld_unit_zero (S := S1x4096) origin]
  obtain ⟨e0, e1, e2, e3, e4, e5⟩ := tiles_at t
  funext j
  show k0_pay1 (iblk m c 0 t) (iblk m c 1 t) j
    = FloatOps.mulf (V m c main_arg0 (((cfg0.win 2).blk t).view.emb j)) (m ((c : Thread nD τ).loc main_arg1) (colOf (((cfg0.win 2).blk t).view.emb j)))
  refine (tile_apply (iblk m c 0 t) (iblk m c 1 t) j).trans ?_
  show FloatOps.mulf (V m c main_arg0 (((cfg0.win 0).blk t).view.emb j)) (V m c main_v0 (((cfg0.win 1).blk t).view.emb (rowUnder j)))
    = FloatOps.mulf (V m c main_arg0 (((cfg0.win 2).blk t).view.emb j)) (m ((c : Thread nD τ).loc main_arg1) (colOf (((cfg0.win 2).blk t).view.emb j)))
  have hj0 : (j 0).val < 512 := (j 0).isLt
  have hj1 : (j 1).val < 4096 := (j 1).isLt
  have hx : ((cfg0.win 0).blk t).view.emb j = ((cfg0.win 2).blk t).view.emb j := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 4096 + 1 * (j 1).val = win0_2.index t (1 : Fin 2) * 4096 + 1 * (j 1).val; omega
  have hw : colOfRow (((cfg0.win 1).blk t).view.emb (rowUnder j)) = colOf (((cfg0.win 2).blk t).view.emb j) := by
    funext a; apply Fin.ext
    match a with
    | ⟨0, _⟩ => show win0_1.index t (1 : Fin 2) * 4096 + 1 * (j 1).val = win0_2.index t (1 : Fin 2) * 4096 + 1 * (j 1).val; omega
  rw [hx, row_found, row_apply, hw]

/-- An entry of the array is in tile `t` iff each of its coordinates is in the tile's range on that axis. -/
theorem in_tile (t : Fin cfg0.N) (i : S8192x4096.Idx) :
    i ∈ ((cfg0.win 2).blk t).view.set ↔ ∀ a : Fin 2, win0_2.index t a * S512x4096.size a ≤ (i a).val ∧ (i a).val < win0_2.index t a * S512x4096.size a + S512x4096.size a := by
  show i ∈ ((View.whole main_v1).slice (win0_2.rect t)).set ↔ _
  rw [View.set_slice_whole, Rect.mem_set_unit]
  exact Iff.rfl

/-- Every entry of the array is in some tile that is written back: row `r` is in tile `r / 512`. -/
theorem tiles_cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hN : (i 0).val / 512 < cfg0.N := by show (i 0).val / 512 < grid0.N; rw [N_0]; omega
  obtain ⟨-, -, -, -, e4, e5⟩ := tiles_at ⟨(i 0).val / 512, hN⟩
  refine ⟨⟨(i 0).val / 512, hN⟩, flush0_2 _, ?_⟩
  rw [in_tile]
  intro a
  match a with
  | ⟨0, _⟩ =>
    show win0_2.index ⟨(i 0).val / 512, hN⟩ (0 : Fin 2) * 512 ≤ (i 0).val ∧ (i 0).val < win0_2.index ⟨(i 0).val / 512, hN⟩ (0 : Fin 2) * 512 + 512
    rw [e4]; show (i 0).val / 512 * 512 ≤ (i 0).val ∧ (i 0).val < (i 0).val / 512 * 512 + 512; omega
  | ⟨1, _⟩ =>
    show win0_2.index ⟨(i 0).val / 512, hN⟩ (1 : Fin 2) * 4096 ≤ (i 1).val ∧ (i 1).val < win0_2.index ⟨(i 0).val / 512, hN⟩ (1 : Fin 2) * 4096 + 4096
    rw [e5]; omega

/-- THE RESULT ARRAY after the last tile is `x · diag(w)` of the argument arrays. -/
theorem result_array (c : Dev nD) :
    (dats m 0 c).arrAt 2 cfg0.N = scaleCols (m ((c : Thread nD τ).loc main_arg0)) (m ((c : Thread nD τ).loc main_arg1)) := by
  rw [← V_main_arg0 m c]
  exact (dats m 0 c).arrAt_eq_of_cover 2 (scaleCols (V m c main_arg0) (m ((c : Thread nD τ).loc main_arg1)))
    (fun t _ => tile_written m c t) tiles_cover

/-! ## The run, read -/

/-- Every weakly fair execution of the kernel's program ends with the result array at `x · diag(w)` of the argument
    arrays, and the argument arrays as they were. -/
theorem run : θ_run defs (onTc (τ := τ) (main (F := F))) ⟨m, fun _ => 0, ρ⟩ fun r => ∀ c : Dev nD,
      r.2.mem ((c : Thread nD τ).loc main_v1) = scaleCols (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_array m c), (h c).2⟩) (Value.run_blocks m ρ)

end Cert.KernelIdeal.Scale

end
-- ==== Proof.lean ====
/-
  A matrix times a diagonal matrix, `x · diag(w)` for `x` of shape [8192, 4096] and `w` of length 4096, computed as
  what it is: column j of `x` scaled by `w j`, one multiplication per entry.

  The kernel does it tile by tile (16 tiles of 512 whole rows, the vector rewritten once as a one-row matrix and
  repeated down each tile); the reference does it on the whole matrix at once (the vector given a unit axis, the row
  repeated down all 8192 rows, one entrywise product). Read at an entry (r, j), each of them multiplies `x r j` by `w j`,
  in that order: both results are the one function `Cert.ScaleCols.scaleCols` of the two argument arrays
  (`Cert.KernelIdeal.Scale.run` for the kernel, `Cert.ReferenceIdeal.Scale.reference_eq` for the reference). The two
  sides are the same product of the same two extended reals, so no law of arithmetic is used and the finiteness of
  the inputs is never opened.

  The three programs run to the end without a fault and leave their arguments as they were: the kernel's result has a
  buffer of its own, so the matrix it was copied from is only read. The idealized kernel is the kernel's own text read
  over the extended reals; nothing was rewritten, so there is nothing to preserve beyond that.
-/
import proofs.«401721_j3917010174744_3_alg».proof.Defs
import proofs.«401721_j3917010174744_3_alg».proof.Proof.Gen.Kernel
import proofs.«401721_j3917010174744_3_alg».proof.Proof.Gen.Kernel.Skeleton
import proofs.«401721_j3917010174744_3_alg».proof.Proof.Gen.Kernel.Launch
import proofs.«401721_j3917010174744_3_alg».proof.Proof.Gen.Kernel.Points
import proofs.«401721_j3917010174744_3_alg».proof.Proof.Gen.Kernel.Frame
import proofs.«401721_j3917010174744_3_alg».proof.Proof.Gen.KernelIdeal
import proofs.«401721_j3917010174744_3_alg».proof.Proof.Gen.KernelIdeal.Skeleton
import proofs.«401721_j3917010174744_3_alg».proof.Proof.Gen.KernelIdeal.Launch
import proofs.«401721_j3917010174744_3_alg».proof.Proof.Gen.KernelIdeal.Points
import proofs.«401721_j3917010174744_3_alg».proof.Proof.Gen.KernelIdeal.Frame
import proofs.«401721_j3917010174744_3_alg».proof.Proof.Gen.ReferenceIdeal
import proofs.«401721_j3917010174744_3_alg».proof.Proof.Gen.KernelIdeal.Value
import proofs.«401721_j3917010174744_3_alg».proof.Proof.Gen.ReferenceIdeal.Run
import proofs.«401721_j3917010174744_3_alg».proof.Proof.Gen.ReferenceIdeal.Read
import proofs.«401721_j3917010174744_3_alg».proof.Proof.Gen.Pre_finite_inputs
import proofs.«401721_j3917010174744_3_alg».proof.Proof.ScaleCols
import proofs.«401721_j3917010174744_3_alg».proof.Proof.ReferenceScale
import proofs.«401721_j3917010174744_3_alg».proof.Proof.KernelScale
import Idealize.ShloMosaic.Adequacy
import Idealize.ShloMosaic.Init

noncomputable section

namespace Cert.Proof

open Idealize.ShloMosaic Idealize.ShloMosaic.TcCoe Idealize.SL.Sem

/-- The kernel as printed runs to the end, faults nowhere, and leaves `x` and `w` as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run to its result, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Over the extended reals, from memories that agree on `x` and `w`, the kernel's result array and the reference's
    are both `x · diag(w)`: entry (r, j) of each is `x r j · w j`. -/
theorem algebraic : Cert.algebraic_KernelIdeal_ReferenceIdeal := by
  intro m ρ m' ρ' _ hagree
  refine ⟨_, Cert.KernelIdeal.Scale.run (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v2_eq, Cert.ReferenceIdeal.Scale.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
